-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S400x10000 : Shape := ⟨2, ![400, 10000]⟩
abbrev S400x128 : Shape := ⟨2, ![400, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S128_S128_0 : ∀ a, (![0] : Fin 1 → Nat) a + S128.size a ≤ S128.size a
  h_S128 : 0 < S128.numel
  shapeCasts_S128_S1x128 : S128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LayerSpec.lean ====
/-
  The graph-convolution layer as one function of its four arrays, and the law that joins its two groupings.

  For a feature table x [N, D], a dense adjacency matrix A [N, N], a weight matrix W [O, D] stored "out × in" and
  a bias b [O], the layer's entry (i, o) is

      max ( Σ_k A(i, k) · ( Σ_j x(k, j) · W(o, j) ) + b(o) , 0 ).

  Grouped the other way round — aggregate first, then project — the inner double sum reads
  Σ_j ( Σ_k A(i, k) · x(k, j) ) · W(o, j). On the extended reals the two agree when every factor is a real number:
  each side is then the real double sum Σ_k Σ_j A(i, k) · x(k, j) · W(o, j), reached by distributing a factor over a
  finite sum (which fails at an infinity, hence the finiteness hypothesis) and exchanging the two finite sums.
-/
import Idealize.ShloMosaic.PureOps.Ideal
import Idealize.ShloMosaic.PureOps.Ideal.Laws
import Idealize.ShloMosaic.Lib.ValueIdx

noncomputable section

open scoped BigOperators

namespace GraphConv

open Idealize.ShloMosaic Idealize.ShloMosaic.ValueIdx

/-- The coercion of the reals into the extended reals carries a finite sum to the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Matrix products associate, entry by entry, over real factors: weighting each row's projection and summing is
    projecting the weighted sum of the rows. -/
theorem sum_mul_sum_real {ι κ : Type*} [Fintype ι] [Fintype κ] (a : ι → ℝ) (x : ι → κ → ℝ) (w : κ → ℝ) :
    ∑ k, a k * ∑ j, x k j * w j = ∑ j, (∑ k, a k * x k j) * w j := by
  simp only [Finset.mul_sum, Finset.sum_mul]
  rw [Finset.sum_comm]
  refine Finset.sum_congr rfl fun j _ => Finset.sum_congr rfl fun k _ => ?_
  ring

/-- The same on the extended reals, for factors that are real numbers. -/
theorem sum_mul_sum_assoc {ι κ : Type*} [Fintype ι] [Fintype κ] (a : ι → ℝ) (x : ι → κ → ℝ) (w : κ → ℝ) :
    ∑ k, (a k : EReal) * ∑ j, (x k j : EReal) * (w j : EReal)
      = ∑ j, (∑ k, (a k : EReal) * (x k j : EReal)) * (w j : EReal) := by
  have hl : ∑ k, (a k : EReal) * ∑ j, (x k j : EReal) * (w j : EReal)
      = ((∑ k, a k * ∑ j, x k j * w j : ℝ) : EReal) := by
    rw [coe_finset_sum]
    refine Finset.sum_congr rfl fun k _ => ?_
    rw [EReal.coe_mul, coe_finset_sum]
    refine congrArg _ (Finset.sum_congr rfl fun j _ => ?_)
    rw [EReal.coe_mul]
  have hr : ∑ j, (∑ k, (a k : EReal) * (x k j : EReal)) * (w j : EReal)
      = ((∑ j, (∑ k, a k * x k j) * w j : ℝ) : EReal) := by
    rw [coe_finset_sum]
    refine Finset.sum_congr rfl fun j _ => ?_
    rw [EReal.coe_mul, coe_finset_sum]
    refine congrArg (· * (w j : EReal)) (Finset.sum_congr rfl fun k _ => ?_)
    rw [EReal.coe_mul]
  rw [hl, hr, sum_mul_sum_real]

/-- An extended real strictly between the two infinities in absolute value is a real number. -/
theorem exists_real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- The layer, projection first: entry (i, o) of `max (A · (x · Wᵀ) + b, 0)` for the literal extents
    N = 10000, D = O = 128. -/
def layer (x : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal := fun i =>
  max ((∑ k : Fin 10000, A (ix2 (i 0) k) * ∑ j : Fin 128, x (ix2 k j) * W (ix2 (i 1) j)) + b (ix1 (i 1))) 0

/-- The layer, aggregation first: entry (i, o) of `max ((A · x) · Wᵀ + b, 0)`. -/
def layerAggFirst (x : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal := fun i =>
  max ((∑ j : Fin 128, (∑ k : Fin 10000, A (ix2 (i 0) k) * x (ix2 k j)) * W (ix2 (i 1) j)) + b (ix1 (i 1))) 0

/-- Over real-valued features, adjacency and weights the two groupings are one function (the bias may be anything). -/
theorem layerAggFirst_eq_layer (x : (⟨2, ![10000, 128]⟩ : Shape).Idx → EReal)
    (A : (⟨2, ![10000, 10000]⟩ : Shape).Idx → EReal) (W : (⟨2, ![128, 128]⟩ : Shape).Idx → EReal)
    (b : (⟨1, ![128]⟩ : Shape).Idx → EReal)
    (hx : ∀ i, ∃ r : ℝ, x i = (r : EReal)) (hA : ∀ i, ∃ r : ℝ, A i = (r : EReal))
    (hW : ∀ i, ∃ r : ℝ, W i = (r : EReal)) :
    layerAggFirst x A W b = layer x A W b := by
  choose x' hx' using hx
  choose A' hA' using hA
  choose W' hW' using hW
  funext i
  unfold layerAggFirst layer
  simp only [hx', hA', hW']
  rw [sum_mul_sum_assoc (fun k : Fin 10000 => A' (ix2 (i 0) k)) (fun k j => x' (ix2 k j)) (fun j : Fin 128 => W' (ix2 (i 1) j))]

end GraphConv

end
-- ==== Proof.Finite.lean ====
/-
  The precondition read back: every entry of the feature table, of the adjacency matrix and of the weight matrix is a
  real number.

  The precondition is the conjunction of four tests "all entries have absolute value below +∞", one per argument. Each
  test reduces a pointwise comparison |v| < +∞ by `and` over all axes; the conjunction being true, each reduction is
  true, so each comparison is true at every index. On the extended reals |v| is max (v, −v) and the word 0x7F800000 is
  +∞, so v is neither infinity: it is a real number. (The bias needs no such fact: it only enters a sum as one summand.)
-/
import proofs.«112045_g68204080660514_cont_9to1_m_597_21_alg».proof.Pre_finite_inputs
import proofs.«112045_g68204080660514_cont_9to1_m_597_21_alg».proof.Proof.Gen.Pre_finite_inputs
import proofs.«112045_g68204080660514_cont_9to1_m_597_21_alg».proof.Proof.LayerSpec
import Idealize.ShloMosaic.Lib.ReduceAll
import Idealize.ShloMosaic.PureOps.Ideal
import Idealize.ShloMosaic.PureOps.Ideal.Laws
import Idealize.ShloMosaic.Lib.ValueIdx

noncomputable section

namespace Cert.Pre_finite_inputs.Finite

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- One pointwise test that came out true: the entry's absolute value is below +∞, so the entry is a real number. -/
theorem real_of_test {s : Shape} (h : S_.BroadcastsInDim s (![] : Fin 0 → Fin s.rank)) (x : FVec Ideal s .f32) (i : s.Idx)
    (e : cmpf .olt (Host.absf x) (broadcastInDim s ![] h (constant S_ .f32 0x7F800000#32)) i = 1#1) :
    ∃ r : ℝ, x i = (r : EReal) := by
  refine GraphConv.exists_real_of_abs_lt_top (x i) ?_
  have e' : Ideal.cmp .olt (max (x i) (-(x i))) (Ideal.ofBits .f32 0x7F800000#32) = 1#1 := e
  rw [inf_word] at e'
  unfold Ideal.cmp at e'
  by_contra hlt
  simp [hlt] at e'

/-- Under the precondition the first three arguments hold real numbers throughout. -/
theorem reals_of_pre (x : FVec Ideal S10000x128 .f32) (A : FVec Ideal S10000x10000 .f32) (W : FVec Ideal S128x128 .f32)
    (b : FVec Ideal S128 .f32) (h : fn (F := Ideal) x A W b = fun _ => 1#1) :
    (∀ i, ∃ r : ℝ, x i = (r : EReal)) ∧ (∀ i, ∃ r : ℝ, A i = (r : EReal)) ∧ (∀ i, ∃ r : ℝ, W i = (r : EReal)) := by
  have h0 := congrFun h ix0
  dsimp only [fn, fn_part1] at h0
  obtain ⟨h1, -⟩ := IntOp.andi_eq_one.mp h0
  obtain ⟨h2, hW⟩ := IntOp.andi_eq_one.mp h1
  obtain ⟨hx, hA⟩ := IntOp.andi_eq_one.mp h2
  refine ⟨fun i => ?_, fun i => ?_, fun i => ?_⟩
  · exact real_of_test _ x i (Host.reduce_andi_all _ _ _ _ _ hx i)
  · exact real_of_test _ A i (Host.reduce_andi_all _ _ _ _ _ hA i)
  · exact real_of_test _ W i (Host.reduce_andi_all _ _ _ _ _ hW i)

end Cert.Pre_finite_inputs.Finite

end
-- ==== Proof.RefLayer.lean ====
/-
  The reference's result, read one entry at a time, is the layer grouped aggregation first.

  The reference multiplies the adjacency matrix by the feature table, multiplies the result by the transposed weight
  matrix, adds the bias broadcast along the rows and takes the maximum with zero. Reading each stage at an index:
  the first product's entry (i, j) is Σ_k A(i, k) · x(k, j); the transpose reads W at the swapped index; the second
  product's entry (i, o) is Σ_j (first product)(i, j) · W(o, j); the two broadcasts read b at the column; the zero
  constant is the extended real 0. That is `GraphConv.layerAggFirst` entry by entry.
-/
import proofs.«112045_g68204080660514_cont_9to1_m_597_21_alg».proof.Proof.Gen.ReferenceIdeal.Read
import proofs.«112045_g68204080660514_cont_9to1_m_597_21_alg».proof.Proof.LayerSpec

noncomputable section

open scoped BigOperators

namespace Cert.ReferenceIdeal.RefLayer

open Cert.ReferenceIdeal Cert.ReferenceIdeal.Read Idealize.ShloMosaic Idealize.ShloMosaic.ValueIdx

/-- The first product's left operand at output row `i 0` (reached through the second product's left index) and
    contraction position `k'` is the adjacency entry `(i 0, k')`. -/
theorem adj_index (i : S10000x128.Idx) (k : Fin 128) (k' : Fin 10000) :
    lidx_main_v0 (lidx_main_v2 i k) k' = ix2 (i 0) k' :=
  funext fun a => Fin.ext (by match a with | ⟨0, _⟩ => rfl | ⟨1, _⟩ => rfl)

/-- The first product's right operand there is the feature entry `(k', k)`. -/
theorem feat_index (i : S10000x128.Idx) (k : Fin 128) (k' : Fin 10000) :
    ridx_main_v0 (lidx_main_v2 i k) k' = ix2 k' k :=
  funext fun a => Fin.ext (by match a with | ⟨0, _⟩ => rfl | ⟨1, _⟩ => rfl)

/-- The transposed weight matrix at the second product's right index `(k, i 1)` is the weight entry `(i 1, k)`. -/
theorem weight_index (i : S10000x128.Idx) (k : Fin 128) :
    idx_main_v1 (ridx_main_v2 i k) = ix2 (i 1) k :=
  funext fun a => Fin.ext (by match a with | ⟨0, _⟩ => rfl | ⟨1, _⟩ => rfl)

/-- The bias, broadcast to a row and then along the rows, is read at the output's column. -/
theorem bias_index (i : S10000x128.Idx) : idx_main_v3 (idx_main_v4 i) = ix1 (i 1) :=
  funext fun a => Fin.ext (by match a with | ⟨0, _⟩ => rfl)

/-- The reference's last stage is the aggregation-first layer of the four argument arrays. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v6 (F := Ideal) x0 x1 x2 x3 = GraphConv.layerAggFirst x0 x1 x2 x3 := by
  funext i
  rw [val_main_v6_apply, val_main_v5_apply, val_main_v2_apply, val_main_v4_apply, val_main_v3_apply,
    val_main_call0_v0_apply, val_main_call0_cst_apply]
  simp only [val_main_v0_apply, val_main_v1_apply, adj_index, feat_index, weight_index, bias_index,
    Ideal.maximumf_def, Ideal.addf_def, Ideal.ofBits_def, Ideal.ofBits_zero_f32]
  rfl

end Cert.ReferenceIdeal.RefLayer

end
-- ==== Proof.Pieces.lean ====
/-
  What the kernel body leaves behind, per control case, as pure functions of what it loads.

  The body has two cases. At the grid's first point it first projects the whole feature table, z = x · Wᵀ, and stores z
  into the scratch buffer it keeps between points; at every point it then reads z back, multiplies the point's block of
  adjacency rows by it, adds the bias along the rows, clamps at zero and stores the result block. So:
    * at the first point the scratch ends holding the projection of the features it loaded;
    * at the first point the output block is the layer's block over that freshly stored projection;
    * at any later point the scratch is untouched and the output block is the layer's block over whatever the scratch
      held on entry.
  Each statement reads a single store through the whole buffer, so the stored payload is what the buffer holds.
-/
import proofs.«112045_g68204080660514_cont_9to1_m_597_21_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a rank-2 whole-buffer access. -/
theorem off2 : (![0, 0] : Fin 2 → Nat) = fun _ => 0 := funext fun a => by fin_cases a <;> rfl
/-- The zero offset of a rank-1 whole-buffer access. -/
theorem off1 : (![0] : Fin 1 → Nat) = fun _ => 0 := funext fun a => by fin_cases a; rfl

/-- First point: the scratch ends holding the projection `x · Wᵀ` of the loaded features and weights. -/
theorem scratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (hc0 : cond0_0 i)
    (x0 : Vec F S10000x128 .f32) (x1 : Vec F S128x128 .f32) (x2 : Vec F S128 .f32) (x3 : Vec F S400x10000 .f32) :
    sout0_A_0 c i arg1 harg1 arg2 harg2 arg3 harg3 arg4 harg4 arg5 harg5 arg6 harg6 hc0 x0 x1 x2 x3 = k0_pay1 x0 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero off2]
  simp only [View.readAt_eq_ld, harg1.read_unread, harg2.read_unread, View.ld_unit_zero (S := S10000x128) off2,
    View.ld_unit_zero (S := S128x128) off2]

/-- First point: the output block is the layer's block of the loaded adjacency rows and bias over the projection just
    stored (the body reads the scratch back after storing it). -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (hc0 : cond0_0 i)
    (x0 : Vec F S10000x128 .f32) (x1 : Vec F S128x128 .f32) (x2 : Vec F S128 .f32) (x3 : Vec F S400x10000 .f32) :
    out0_A_4 c i arg1 harg1 arg2 harg2 arg3 harg3 arg4 harg4 arg5 harg5 arg6 harg6 hc0 x0 x1 x2 x3 = k0_pay2 x3 (k0_pay1 x0 x1) x2 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero off2]
  simp only [View.readAt_eq_ld, harg1.read_unread, harg2.read_unread, harg3.read_unread, harg4.read_unread,
    View.readCov_unit_zero (S := S10000x128) _ off2, View.ld_unit_zero (S := S10000x128) off2,
    View.ld_unit_zero (S := S128x128) off2, View.ld_unit_zero (S := S400x10000) off2, View.ld_unit_zero (S := S128) off1]

/-- A later point: the output block is the layer's block over what the scratch held on entry. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (hc0 : ¬cond0_0 i)
    (x0 : Vec F S10000x128 .f32) (x1 : Vec F S128x128 .f32) (x2 : Vec F S128 .f32) (x3 : Vec F S400x10000 .f32)
    (xs0 : Vec F S10000x128 .f32) :
    out0_B_4 c i arg1 harg1 arg2 harg2 arg3 harg3 arg4 harg4 arg5 harg5 arg6 harg6 hc0 x0 x1 x2 x3 xs0 = k0_pay2 x3 xs0 x2 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero off2]
  simp only [View.readAt_eq_ld, harg3.read_unread, harg4.read_unread, harg6.read_unread,
    View.ld_unit_zero (S := S10000x128) off2, View.ld_unit_zero (S := S400x10000) off2, View.ld_unit_zero (S := S128) off1]

end Cert.KernelIdeal.Pieces

end
-- ==== Proof.Blocks.lean ====
/-
  What the staging buffers hold point by point.

  Three of the four inputs are fetched whole: their index maps are constantly zero and their blocks are the arrays, so
  at every grid point the body loads the whole feature table, the whole weight matrix and the whole bias. The
  adjacency matrix is streamed in blocks of 400 rows: at point t the block's entry (r, k) is the matrix entry
  (400 t + r, k).

  The scratch buffer is stored once, at the first point, with the projection of the features, and no later point
  stores into it; so after EVERY point it holds that one projection (induction on the point). Hence after every point
  the output's staging buffer holds the layer's block of that point's adjacency rows over the projection.
-/
import proofs.«112045_g68204080660514_cont_9to1_m_597_21_alg».proof.Proof.Pieces
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pieces Idealize.ShloMosaic.ValueIdx

variable {F : FTy → Type} [FloatOps F]
variable (m : (ℓ : Loc nD τ sig) → Buf (Elt F) ℓ)

/-- The feature table as the region finds it. -/
abbrev feats (c : Dev nD) : Vec F S10000x128 .f32 := V m c main_arg0
/-- The adjacency matrix as the region finds it. -/
abbrev adj (c : Dev nD) : Vec F S10000x10000 .f32 := V m c main_arg1
/-- The weight matrix as the region finds it. -/
abbrev wts (c : Dev nD) : Vec F S128x128 .f32 := V m c main_arg2
/-- The bias as the region finds it. -/
abbrev bias (c : Dev nD) : Vec F S128 .f32 := V m c main_arg3
/-- The block of adjacency rows staged at point `t`. -/
abbrev adjRows (c : Dev nD) (t : Fin cfg0.N) : Vec F S400x10000 .f32 := iblk m c 3 t
/-- The projection of the feature table by the weights: what the first point stores in the scratch. -/
abbrev proj (c : Dev nD) : Vec F S10000x128 .f32 := k0_pay1 (feats m c) (wts m c)

/-- The index maps over the grid: the three whole-array windows stay at block zero, the adjacency and output windows
    are at row block `t`, column block zero. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block is the whole table, at every point. -/
theorem feats_block (c : Dev nD) (t : Fin cfg0.N) : (iblk m c 0 t : Vec F S10000x128 .f32) = feats m c := by
  obtain ⟨e0, e1, -⟩ := index_facts t
  funext j
  unfold iblk
  rw [View.read_apply]
  show V m c main_arg0 _ = V m c main_arg0 j
  congr 1
  funext a
  apply Fin.ext
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- The weight window's block is the whole matrix, at every point. -/
theorem wts_block (c : Dev nD) (t : Fin cfg0.N) : (iblk m c 1 t : Vec F S128x128 .f32) = wts m c := by
  obtain ⟨-, -, e0, e1, -⟩ := index_facts t
  funext j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The bias window's block is the whole vector, at every point. -/
theorem bias_block (c : Dev nD) (t : Fin cfg0.N) : (iblk m c 2 t : Vec F S128 .f32) = bias m c := by
  obtain ⟨-, -, -, -, e0, -⟩ := index_facts t
  funext j
  unfold iblk
  rw [View.read_apply]
  show V m c main_arg3 _ = V m c main_arg3 j
  congr 1
  funext a
  apply Fin.ext
  match a with
  | ⟨0, _⟩ => show win0_2.index t (0 : Fin 1) * 128 + 1 * (j 0).val = (j 0).val; rw [e0]; omega

/-- The adjacency block at point `t` reads the matrix 400 t rows down. -/
theorem adjRows_apply (c : Dev nD) (t : Fin cfg0.N) (r : Fin 400) (k : Fin 10000) (hr : 400 * t.val + r.val < 10000) :
    adjRows m c t (ix2 r k) = adj m c (ix2 ⟨400 * t.val + r.val, hr⟩ k) := by
  obtain ⟨-, -, -, -, -, e0, e1, -⟩ := index_facts t
  show iblk m c 3 t (ix2 r k) = V m c main_arg1 (ix2 ⟨400 * t.val + r.val, hr⟩ k)
  unfold iblk
  rw [View.read_apply]
  show V m c main_arg1 _ = V m c main_arg1 _
  congr 1
  funext a
  apply Fin.ext
  match a with
  | ⟨0, _⟩ => show win0_3.index t (0 : Fin 2) * 400 + 1 * r.val = 400 * t.val + r.val; rw [e0]; omega
  | ⟨1, _⟩ => show win0_3.index t (1 : Fin 2) * 10000 + 1 * k.val = k.val; rw [e1]; omega

/-- After every point the scratch holds the projection of the feature table: stored at the first point, kept since. -/
theorem scratch_eq (c : Dev nD) : ∀ (n : ℕ) (h : n < cfg0.N), (outsAt0 m c n h).2 = proj m c
  | 0, h => by
    rw [outsAt0_A m c ⟨0, h⟩ rfl]
    dsimp only
    rw [scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩), feats_block, wts_block]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- After point `t` the output's staging buffer holds the layer's block of that point's adjacency rows over the
    projection, with the bias. -/
theorem out_eq (c : Dev nD) (t : Fin cfg0.N) :
    (outsAt0 m c t.val t.isLt).1 = k0_pay2 (adjRows m c t) (proj m c) (bias m c) := by
  by_cases h0 : t.val % 25 = 0
  · rw [outsAt0_A m c t h0]
    dsimp only
    rw [out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), feats_block, wts_block, bias_block]
  · rw [outsAt0_B m c t h0]
    dsimp only
    rw [out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      ((outsAt0 m c (t.val - 1) (Nat.lt_of_le_of_lt (Nat.sub_le _ _) t.isLt)).2), scratch_eq, bias_block]

end Cert.KernelIdeal.Blocks

end
-- ==== Proof.Payload.lean ====
/-
  The body's two payloads read one entry at a time, on the extended reals.

  The projection payload is a matrix product contracting the LAST axis of both operands (the weight matrix is stored
  "out × in"), into a zero accumulator: its entry (p, q) is Σ_j x(p, j) · W(q, j). The block payload is an ordinary
  product of the adjacency block with the projection — entry (p, q) is Σ_k a(p, k) · z(k, q) — plus the bias, which is
  lifted to one row and repeated along the rows so that entry (p, q) receives b(q), and then the maximum with zero.
-/
import proofs.«112045_g68204080660514_cont_9to1_m_597_21_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The projection's dimension numbers: both operands contracted on their last axis -/

/-- The feature operand's row is the output's row. -/
theorem proj_lhs_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
/-- The feature operand's column is the contracted coordinate. -/
theorem proj_lhs_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
/-- The weight operand's row is the output's column. -/
theorem proj_rhs_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
/-- The weight operand's column is the contracted coordinate. -/
theorem proj_rhs_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The projection payload at (p, q): the row p of the features against the row q of the weights. -/
theorem projection_apply (x : Vec Ideal S10000x128 .f32) (W : Vec Ideal S128x128 .f32) (p : Fin 10000) (q : Fin 128) :
    k0_pay1 (F := Ideal) x W (ix2 p q) = ∑ j : Fin 128, x (ix2 p j) * W (ix2 q j) := by
  unfold k0_pay1
  rw [shapeCast_self]
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k := funext fun a => Fin.ext (by
    match a with
    | ⟨0, _⟩ => exact proj_lhs_0 _ _
    | ⟨1, _⟩ => exact (proj_lhs_1 _ _).trans hk)
  have er : dot_S10000x128_S128x128_S10000x128_1_1_0_0_n_n.rhsIdx (ix2 p q) ((contrEquiv1 dot_S10000x128_S128x128_S10000x128_1_1_0_0_n_n 128 rfl rfl).symm k) = ix2 q k := funext fun a => Fin.ext (by
    match a with
    | ⟨0, _⟩ => exact proj_rhs_0 _ _
    | ⟨1, _⟩ => exact (proj_rhs_1 _ _).trans hk)
  rw [el, er]

/-! ## The aggregation's dimension numbers: rows times columns -/

/-- The adjacency block's row is the output's row. -/
theorem agg_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The adjacency block's column is the contracted coordinate. -/
theorem agg_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The projection's row is the contracted coordinate. -/
theorem agg_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The projection's column is the output's column. -/
theorem agg_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product of an adjacency block with a projected table, into a zero accumulator, at (p, q). -/
theorem aggregate_apply (a : Vec Ideal S400x10000 .f32) (z : Vec Ideal S10000x128 .f32) (p : Fin 400) (q : Fin 128) :
    FloatOps.matmul (F := Ideal) (φ₁ := .f32) (φ₂ := .f32) dot_S400x10000_S10000x128_S400x128_1_0_0_1_n_n none a z (constant S400x128 .f32 0x00000000#32) (ix2 p q)
      = ∑ k : Fin 10000, a (ix2 p k) * z (ix2 k q) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact agg_lhs_0 _ _
    | ⟨1, _⟩ => exact (agg_lhs_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (agg_rhs_0 _ _).trans hk
    | ⟨1, _⟩ => exact agg_rhs_1 _ _)
  rw [el, er]

/-- The block payload at (p, q): the aggregated row against the projected column, plus the bias at the column,
    clamped at zero. -/
theorem block_apply (a : Vec Ideal S400x10000 .f32) (z : Vec Ideal S10000x128 .f32) (b : Vec Ideal S128 .f32)
    (p : Fin 400) (q : Fin 128) :
    k0_pay2 (F := Ideal) a z b (ix2 p q) = max ((∑ k : Fin 10000, a (ix2 p k) * z (ix2 k q)) + b (ix1 q)) 0 := by
  unfold k0_pay2
  simp only [matmul]
  show max (FloatOps.matmul (F := Ideal) (φ₁ := .f32) (φ₂ := .f32) dot_S400x10000_S10000x128_S400x128_1_0_0_1_n_n none a z (constant S400x128 .f32 0x00000000#32) (ix2 p q)
      + broadcastTo S400x128 (shapeCast S1x128 b shapeCasts_S128_S1x128) broadcasts_S1x128_S400x128 (ix2 p q))
    (FloatOps.ofBits (F := Ideal) .f32 0x00000000#32) = _
  rw [aggregate_apply, broadcastTo_1b_ab_apply, shapeCast_a_1a_apply, Ideal.ofBits_def, Ideal.ofBits_zero_f32]

end Cert.KernelIdeal.Payload

end
-- ==== Proof.LayerValue.lean ====
/-
  The kernel's result array, on the extended reals, is the layer (projection first) of its four argument arrays.

  At point t the write-back sends the output's staging buffer to rows 400 t … 400 t + 399 of the result. Its entry
  (r, q) is max (Σ_k a(r, k) · z(k, q) + b(q), 0) with a the staged adjacency rows — a(r, k) = A(400 t + r, k) — and z the
  projection the scratch holds — z(k, q) = Σ_j x(k, j) · W(q, j). That is the layer's entry (400 t + r, q). The 25 blocks
  of 400 rows tile the 10000 rows (row i lies in block i / 400), and every point writes back, so the whole array ends
  holding the layer.
-/
import proofs.«112045_g68204080660514_cont_9to1_m_597_21_alg».proof.Proof.Blocks
import proofs.«112045_g68204080660514_cont_9to1_m_597_21_alg».proof.Proof.Payload
import proofs.«112045_g68204080660514_cont_9to1_m_597_21_alg».proof.Proof.LayerSpec

noncomputable section

open scoped BigOperators
open Idealize.ShloMosaic Idealize.ShloMosaic.TcCoe Idealize.SL.Sem
open Idealize.ShloMosaic.Pipeline (Dat)

namespace Cert.KernelIdeal.LayerValue

open Cert.KernelIdeal Cert.KernelIdeal.Gen Cert.KernelIdeal.Blocks Idealize.ShloMosaic.ValueIdx

variable (m : (ℓ : Loc nD τ sig) → Buf (Elt Ideal) ℓ) (ρ : Dev nD → PrngReg)

/-- The layer of the argument arrays as the region finds them. -/
abbrev result (c : Dev nD) : S10000x128.Idx → EReal :=
  GraphConv.layer (feats m c) (adj m c) (wts m c) (bias m c)

/-- Entry `j` of the block the body leaves at point `t` is the layer's entry 400 t rows further down. -/
theorem block_entry (c : Dev nD) (t : Fin cfg0.N) (j : S400x128.Idx) (hp : 400 * t.val + (j 0).val < 10000) :
    k0_pay2 (F := Ideal) (adjRows m c t) (proj m c) (bias m c) j
      = result m c (ix2 ⟨400 * t.val + (j 0).val, hp⟩ (j 1)) := by
  obtain ⟨p, q, rfl⟩ : ∃ (p : Fin 400) (q : Fin 128), j = ix2 p q := ⟨j 0, j 1, eq_ix2 j⟩
  rw [Payload.block_apply]
  unfold result GraphConv.layer
  show max ((∑ k : Fin 10000, adjRows m c t (ix2 p k) * proj m c (ix2 k q)) + bias m c (ix1 q)) 0
    = max ((∑ k : Fin 10000, adj m c (ix2 ⟨400 * t.val + p.val, hp⟩ k)
        * ∑ j : Fin 128, feats m c (ix2 k j) * wts m c (ix2 q j)) + bias m c (ix1 q)) 0
  refine congrArg (max · 0) (congrArg (· + bias m c (ix1 q)) (Finset.sum_congr rfl fun k _ => ?_))
  rw [adjRows_apply m c t p k hp]
  exact congrArg (adj m c (ix2 ⟨400 * t.val + p.val, hp⟩ k) * ·) (Payload.projection_apply (feats m c) (wts m c) k q)

/-- What point `t` writes back is block `t` of the layer. -/
theorem flushed_eq (c : Dev nD) (t : Fin cfg0.N) :
    (dats m 0 c).flushed 4 t = ((cfg0.win 4).blk t).view.read (Elt Ideal) (result m c) := by
  rw [Value.flushed4, out_eq]
  obtain ⟨-, -, -, -, -, -, -, e0, e1⟩ := index_facts t
  have hN : t.val < 25 := lt_of_lt_of_eq t.isLt (show cfg0.N = 25 from N_0)
  funext j
  have hj0 : (j 0).val < 400 := (j 0).isLt
  have hp : 400 * t.val + (j 0).val < 10000 := by omega
  show k0_pay2 (F := Ideal) (adjRows m c t) (proj m c) (bias m c) j = result m c (((cfg0.win 4).blk t).view.emb j)
  rw [block_entry m c t j hp]
  congr 1
  funext a
  apply Fin.ext
  match a with
  | ⟨0, _⟩ => show 400 * t.val + (j 0).val = win0_4.index t (0 : Fin 2) * 400 + 1 * (j 0).val; rw [e0]; omega
  | ⟨1, _⟩ => show (j 1).val = win0_4.index t (1 : Fin 2) * 128 + 1 * (j 1).val; rw [e1]; omega

/-- An index of the result lies in point `t`'s block when each coordinate lies in the block's range on its axis. -/
theorem mem_block (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v0).slice (win0_4.rect t)).set ↔ _
  rw [View.set_slice_whole, Rect.mem_set_unit]
  exact Iff.rfl

/-- The result array ends holding the layer: every row lies in the block of the point `row / 400`. -/
theorem final (c : Dev nD) : (dats m 0 c).arrAt 4 cfg0.N = result m c :=
  (dats m 0 c).arrAt_eq_of_cover 4 (result m c) (fun t _ => flushed_eq m c t) fun i => by
    have hi0 : (i 0).val < 10000 := (i 0).isLt
    have hi1 : (i 1).val < 128 := (i 1).isLt
    have hN : cfg0.N = 25 := N_0
    have ht : (i 0).val / 400 < cfg0.N := by omega
    obtain ⟨-, -, -, -, -, -, -, e0, e1⟩ := index_facts ⟨(i 0).val / 400, ht⟩
    refine ⟨⟨(i 0).val / 400, ht⟩, flush0_4 _, ?_⟩
    rw [mem_block]
    intro a
    match a with
    | ⟨0, _⟩ =>
      show win0_4.index ⟨(i 0).val / 400, ht⟩ (0 : Fin 2) * 400 ≤ (i 0).val
        ∧ (i 0).val < win0_4.index ⟨(i 0).val / 400, ht⟩ (0 : Fin 2) * 400 + 400
      rw [e0]; dsimp only; omega
    | ⟨1, _⟩ =>
      show win0_4.index ⟨(i 0).val / 400, ht⟩ (1 : Fin 2) * 128 ≤ (i 1).val
        ∧ (i 1).val < win0_4.index ⟨(i 0).val / 400, ht⟩ (1 : Fin 2) * 128 + 128
      rw [e1]; omega

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LayerValue

end
-- ==== Proof.lean ====
/-
  A graph-convolution layer, relu (A · x · Wᵀ + b), computed two ways.

  The kernel projects first: at the grid's first point it forms z = x · Wᵀ once and keeps it in a scratch buffer; then, for
  each block of 400 adjacency rows, it forms max (A_block · z + b, 0) and writes that block of the result. The reference
  aggregates first: (A · x) · Wᵀ + b, then the maximum with zero.

  On the extended reals both results are, entry (i, o),
      max ( Σ_k Σ_j A(i, k) · x(k, j) · W(o, j) + b(o) , 0 ),
  grouped as Σ_k A(i, k) · (Σ_j …) by the kernel and as Σ_j (Σ_k …) · W(o, j) by the reference. The two groupings agree
  by distributing a factor over a finite sum and exchanging the two sums; distributivity fails at an infinite factor, and
  this is where the precondition is used: it makes every entry of x, A and W a real number.

  The modules: the layer and the law of the two groupings (LayerSpec); the precondition read back (Finite); the
  reference's stages read at an index (RefLayer); the kernel's stored payloads per control case (Pieces), read at an
  index (Payload), the staging buffers point by point (Blocks) and the result array from its 25 blocks (LayerValue).
  The three frame claims are the generated frames and the reference's generated run; the idealization rewrote nothing.
-/
import proofs.«112045_g68204080660514_cont_9to1_m_597_21_alg».proof.Defs
import proofs.«112045_g68204080660514_cont_9to1_m_597_21_alg».proof.Proof.Gen.Kernel
import proofs.«112045_g68204080660514_cont_9to1_m_597_21_alg».proof.Proof.Gen.Kernel.Skeleton
import proofs.«112045_g68204080660514_cont_9to1_m_597_21_alg».proof.Proof.Gen.Kernel.Launch
import proofs.«112045_g68204080660514_cont_9to1_m_597_21_alg».proof.Proof.Gen.Kernel.Points
import proofs.«112045_g68204080660514_cont_9to1_m_597_21_alg».proof.Proof.Gen.Kernel.Frame
import proofs.«112045_g68204080660514_cont_9to1_m_597_21_alg».proof.Proof.Gen.KernelIdeal
import proofs.«112045_g68204080660514_cont_9to1_m_597_21_alg».proof.Proof.Gen.KernelIdeal.Skeleton
import proofs.«112045_g68204080660514_cont_9to1_m_597_21_alg».proof.Proof.Gen.KernelIdeal.Launch
import proofs.«112045_g68204080660514_cont_9to1_m_597_21_alg».proof.Proof.Gen.KernelIdeal.Points
import proofs.«112045_g68204080660514_cont_9to1_m_597_21_alg».proof.Proof.Gen.KernelIdeal.Frame
import proofs.«112045_g68204080660514_cont_9to1_m_597_21_alg».proof.Proof.Gen.ReferenceIdeal
import proofs.«112045_g68204080660514_cont_9to1_m_597_21_alg».proof.Proof.Gen.Pre_finite_inputs
import proofs.«112045_g68204080660514_cont_9to1_m_597_21_alg».proof.Proof.Gen.KernelIdeal.Value
import proofs.«112045_g68204080660514_cont_9to1_m_597_21_alg».proof.Proof.Gen.ReferenceIdeal.Run
import proofs.«112045_g68204080660514_cont_9to1_m_597_21_alg».proof.Proof.Gen.ReferenceIdeal.Read
import proofs.«112045_g68204080660514_cont_9to1_m_597_21_alg».proof.Proof.LayerSpec
import proofs.«112045_g68204080660514_cont_9to1_m_597_21_alg».proof.Proof.Finite
import proofs.«112045_g68204080660514_cont_9to1_m_597_21_alg».proof.Proof.RefLayer
import proofs.«112045_g68204080660514_cont_9to1_m_597_21_alg».proof.Proof.LayerValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: nothing to preserve. -/
theorem preserves : Cert.preserves_Kernel_KernelIdeal := trivial

/-- Both programs end with the layer of the arguments: the kernel with the projection-first grouping, the reference with
    the aggregation-first grouping, equal because the precondition makes the features, the adjacency and the weights
    real-valued. -/
theorem algebraic : Cert.algebraic_KernelIdeal_ReferenceIdeal := by
  intro m ρ m' ρ' hpre hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefLayer.result_eq,
    (hagree c).1, (hagree c).2.1, (hagree c).2.2.1, (hagree c).2.2.2]
  obtain ⟨hx, hA, hW⟩ := Cert.Pre_finite_inputs.Finite.reals_of_pre _ _ _ _ (hpre c)
  exact GraphConv.layerAggFirst_eq_layer _ _ _ _ hx hA hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
